-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x256 .f32) (main_arg1 : FVec F S256x128 .f32) (main_arg2 : FVec F S128x64 .f32) (main_arg3 : FVec F S1600000 .f32) (main_arg4 : IVec S1600000 32) (main_arg5 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 43
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Blocks0.lean ====
/-
  The first dense product, block by block.

  The first region runs over 20 grid points. At point t the kernel loads rows 5000·t … 5000·t + 4999 of the
  [100000, 256] array it is given and the whole [256, 128] weight, rounds both to bf16 (the identity on the
  extended reals), multiplies them into a zero accumulator, and writes the [5000, 128] product back as rows
  5000·t … 5000·t + 4999 of the result. Entry (p, q) of that block is the sum over k of x (5000·t + p, k) · w (k, q),
  which is entry (5000·t + p, q) of the whole product x · w as the host's dot_general computes it. The 20 row
  blocks tile the [100000, 128] result, so after the region the result array is the whole product.
-/
import proofs.«139901_j25769804170_1_alg».proof.Proof.Gen.KernelIdeal.Frame
import proofs.«139901_j25769804170_1_alg».proof.Proof.Gen.ReferenceIdeal
import proofs.«139901_j25769804170_1_alg».proof.Proof.LibPlainDot
import Idealize.ShloMosaic.Lib.Pipeline.Value

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat)
open Cert.KernelIdeal Cert.KernelIdeal.Gen

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The whole product x · w, as the host computes it. -/
abbrev prod (x : FVec Ideal S100000x256 .f32) (w : FVec Ideal S256x128 .f32) : FVec Ideal S100000x128 .f32 :=
  Host.dotGeneral Cert.ReferenceIdeal.dot_S100000x256_S256x128_S100000x128_1_0_0_1_n_n none x w

/-- An entry of the whole product: the sum over k of x (r, k) · w (k, q). -/
theorem prod_apply (x : FVec Ideal S100000x256 .f32) (w : FVec Ideal S256x128 .f32) (r : Fin 100000) (q : Fin 128) :
    prod x w (ix2 r q) = ∑ k : Fin 256, (x (ix2 r k) : EReal) * (w (ix2 k q) : EReal) :=
  PlainDot.dotGeneral_apply (M := 100000) (K := 256) (N := 128) _ rfl rfl rfl rfl rfl rfl none .single x w r q

/-- An entry of the body's stored value: the sum over k of xb (p, k) · wb (k, q) of the two loaded blocks. -/
theorem pay_apply (xb : Vec Ideal S5000x256 .f32) (wb : Vec Ideal S256x128 .f32) (p : Fin 5000) (q : Fin 128) :
    k0_pay1 xb wb (ix2 p q) = ∑ k : Fin 256, (xb (ix2 p k) : EReal) * (wb (ix2 k q) : EReal) := by
  unfold k0_pay1
  exact PlainDot.matmul_zero_apply (M := 5000) (K := 256) (N := 128) _ rfl rfl rfl rfl rfl rfl none _ _ p q

/-- The printed index maps over the grid: the row-block index of the input and of the output is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt (show cfg0.N = 20 from N_0)

/-- The input block at point t is rows 5000·t … of the array. -/
theorem xblk_apply (c : Dev nD) (t : Fin cfg0.N) (p : Fin 5000) (k : Fin 256) (r : Fin 100000) (hr : r.val = 5000 * t.val + p.val) :
    (iblk0 V c 0 t : Vec Ideal S5000x256 .f32) (ix2 p k) = (V c main_arg0 : FVec Ideal S100000x256 .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight block at every point is the whole weight. -/
theorem wblk_apply (c : Dev nD) (t : Fin cfg0.N) (k : Fin 256) (q : Fin 128) :
    (iblk0 V c 1 t : Vec Ideal S256x128 .f32) (ix2 k q) = (V c main_arg1 : FVec Ideal S256x128 .f32) (ix2 k q) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- What point t writes back is block t of the whole product of the arrays the region finds. -/
theorem flushed_eq (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx_facts t
  have ht := t_lt t
  funext y
  obtain ⟨p, q, rfl⟩ : ∃ (p : Fin 5000) (q : Fin 128), y = ix2 p q := ⟨y 0, y 1, eq_ix2 y⟩
  have hr : 5000 * t.val + p.val < 100000 := by have := p.isLt; omega
  have hemb : ((cfg0.win 2).blk t).view.emb (ix2 p q) = (ix2 (⟨5000 * t.val + p.val, hr⟩ : Fin 100000) q : S100000x128.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [View.read_apply, hemb]
  refine (pay_apply _ _ p q).trans ?_
  refine Eq.trans ?_ (prod_apply _ _ _ q).symm
  refine Finset.sum_congr rfl fun k _ => ?_
  rw [xblk_apply V c t p k ⟨5000 * t.val + p.val, hr⟩ rfl, wblk_apply V c t k q]

/-- Every entry of the result array lies in the row block of the point numbered by its row divided by 5000. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := N_0
  let t : Fin cfg0.N := ⟨(i 0).val / 5000, by rw [hN]; omega⟩
  obtain ⟨-, -, -, -, e4, e5⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e5]; omega

/-- After the region the result array is the whole product of the two arrays the region finds. -/
theorem final (c : Dev nD) : (dat0 V c).arrAt 2 cfg0.N = prod (V c main_arg0) (V c main_arg1) :=
  (dat0 V c).arrAt_eq_of_cover 2 (prod (V c main_arg0) (V c main_arg1)) (fun t _ => flushed_eq V c t) cover

end Cert.KernelIdeal.Dense0

end
-- ==== Proof.Blocks1.lean ====
/-
  The second dense product, block by block.

  The second region runs over 20 grid points. At point t the kernel loads rows 5000·t … 5000·t + 4999 of the
  [100000, 128] hidden array and the whole [128, 64] weight, rounds both to bf16 (the identity on the extended
  reals), multiplies them into a zero accumulator, and writes the [5000, 64] product back as rows
  5000·t … 5000·t + 4999 of the result. Entry (p, q) of that block is the sum over k of h (5000·t + p, k) · w (k, q),
  which is entry (5000·t + p, q) of the whole product h · w as the host's dot_general computes it. The 20 row
  blocks tile the [100000, 64] result, so after the region the result array is the whole product.
-/
import proofs.«139901_j25769804170_1_alg».proof.Proof.Gen.KernelIdeal.Frame
import proofs.«139901_j25769804170_1_alg».proof.Proof.Gen.ReferenceIdeal
import proofs.«139901_j25769804170_1_alg».proof.Proof.LibPlainDot
import Idealize.ShloMosaic.Lib.Pipeline.Value

set_option maxRecDepth 16384

noncomputable section

namespace Cert.KernelIdeal.Dense1

open Idealize.ShloMosaic Idealize.ShloMosaic.TcCoe Idealize.ShloMosaic.ValueIdx Idealize.SL.Sem
open Idealize.ShloMosaic.Pipeline (Dat)
open Cert.KernelIdeal Cert.KernelIdeal.Gen

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The whole product h · w, as the host computes it. -/
abbrev prod (h : FVec Ideal S100000x128 .f32) (w : FVec Ideal S128x64 .f32) : FVec Ideal S100000x64 .f32 :=
  Host.dotGeneral Cert.ReferenceIdeal.dot_S100000x128_S128x64_S100000x64_1_0_0_1_n_n none h w

/-- An entry of the whole product: the sum over k of h (r, k) · w (k, q). -/
theorem prod_apply (h : FVec Ideal S100000x128 .f32) (w : FVec Ideal S128x64 .f32) (r : Fin 100000) (q : Fin 64) :
    prod h w (ix2 r q) = ∑ k : Fin 128, (h (ix2 r k) : EReal) * (w (ix2 k q) : EReal) :=
  PlainDot.dotGeneral_apply (M := 100000) (K := 128) (N := 64) _ rfl rfl rfl rfl rfl rfl none .single h w r q

/-- An entry of the body's stored value: the sum over k of hb (p, k) · wb (k, q) of the two loaded blocks (the
    reshape of the loaded block to its own shape changes nothing). -/
theorem pay_apply (hb : Vec Ideal S5000x128 .f32) (wb : Vec Ideal S128x64 .f32) (p : Fin 5000) (q : Fin 64) :
    k1_pay1 hb wb (ix2 p q) = ∑ k : Fin 128, (hb (ix2 p k) : EReal) * (wb (ix2 k q) : EReal) := by
  unfold k1_pay1
  rw [shapeCast_self]
  exact PlainDot.matmul_zero_apply (M := 5000) (K := 128) (N := 64) _ rfl rfl rfl rfl rfl rfl none _ _ p q

/-- The printed index maps over the grid: the row-block index of the input and of the output is the point's number,
    every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 20 := lt_of_lt_of_eq t.isLt (show cfg1.N = 20 from N_1)

/-- The input block at point t is rows 5000·t … of the hidden array. -/
theorem hblk_apply (c : Dev nD) (t : Fin cfg1.N) (p : Fin 5000) (k : Fin 128) (r : Fin 100000) (hr : r.val = 5000 * t.val + p.val) :
    (iblk1 V c 0 t : Vec Ideal S5000x128 .f32) (ix2 p k) = (V c main_v14 : FVec Ideal S100000x128 .f32) (ix2 r k) := by
  obtain ⟨e0, e1, -⟩ := idx_facts t
  unfold iblk1
  rw [View.read_apply]
  show V c main_v14 _ = V c main_v14 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight block at every point is the whole weight. -/
theorem wblk_apply (c : Dev nD) (t : Fin cfg1.N) (k : Fin 128) (q : Fin 64) :
    (iblk1 V c 1 t : Vec Ideal S128x64 .f32) (ix2 k q) = (V c main_arg2 : FVec Ideal S128x64 .f32) (ix2 k q) := by
  obtain ⟨-, -, e2, e3, -⟩ := idx_facts t
  unfold iblk1
  rw [View.read_apply]
  show V c main_arg2 _ = V c main_arg2 _
  congr 1
  funext a
  apply Fin.ext
  match a with
  | ⟨0, _⟩ => show win1_1.index t (0 : Fin 2) * 128 + 1 * k.val = k.val; rw [e2]; omega
  | ⟨1, _⟩ => show win1_1.index t (1 : Fin 2) * 64 + 1 * q.val = q.val; rw [e3]; omega

/-- What point t writes back is block t of the whole product of the arrays the region finds. -/
theorem flushed_eq (c : Dev nD) (t : Fin cfg1.N) :
    (dat1 V c).flushed 2 t = ((cfg1.win 2).blk t).view.read (Elt Ideal) (prod (V c main_v14) (V c main_arg2)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨-, -, -, -, e4, e5⟩ := idx_facts t
  have ht := t_lt t
  funext y
  obtain ⟨p, q, rfl⟩ : ∃ (p : Fin 5000) (q : Fin 64), y = ix2 p q := ⟨y 0, y 1, eq_ix2 y⟩
  have hr : 5000 * t.val + p.val < 100000 := by have := p.isLt; omega
  have hemb : ((cfg1.win 2).blk t).view.emb (ix2 p q) = (ix2 (⟨5000 * t.val + p.val, hr⟩ : Fin 100000) q : S100000x64.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 64 + 1 * q.val = q.val; rw [e5]; omega
  rw [View.read_apply, hemb]
  refine (pay_apply _ _ p q).trans ?_
  refine Eq.trans ?_ (prod_apply _ _ _ q).symm
  refine Finset.sum_congr rfl fun k _ => ?_
  rw [hblk_apply V c t p k ⟨5000 * t.val + p.val, hr⟩ rfl, wblk_apply V c t k q]

/-- Every entry of the result array lies in the row block of the point numbered by its row divided by 5000. -/
theorem cover (i : S100000x64.Idx) : ∃ t : Fin cfg1.N, (cfg1.win 2).flush t = true ∧ i ∈ ((cfg1.win 2).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  obtain ⟨-, -, -, -, e4, e5⟩ := idx_facts t
  refine ⟨t, flush1_2 t, ?_⟩
  show i ∈ ((View.whole main_v15).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e4]; show (i 0).val / 5000 * 5000 ≤ (i 0).val ∧ (i 0).val < (i 0).val / 5000 * 5000 + 5000; omega
  | ⟨1, _⟩ =>
    show win1_2.index t (1 : Fin 2) * 64 ≤ (i 1).val ∧ (i 1).val < win1_2.index t (1 : Fin 2) * 64 + 64
    rw [e5]; omega

/-- After the region the result array is the whole product of the two arrays the region finds. -/
theorem final (c : Dev nD) : (dat1 V c).arrAt 2 cfg1.N = prod (V c main_v14) (V c main_arg2) :=
  (dat1 V c).arrAt_eq_of_cover 2 (prod (V c main_v14) (V c main_arg2)) (fun t _ => flushed_eq V c t) cover

end Cert.KernelIdeal.Dense1

end
-- ==== Proof.Layers.lean ====
/-
  The two graph-convolution layers after their dense products, as functions of a dense array.

  Both programs send a dense array `sup` through the same sparse product: each edge e reads row src[e] of
  `sup` (a negative src[e] counted from the end), scales it by vals[e], and the scaled rows are summed into
  row dst[e] of a zero array. The first layer then takes the maximum with zero. Nothing below opens these
  operations: the two programs are compared on the dense arrays that go in.
-/
import proofs.«139901_j25769804170_1_alg».proof.ReferenceIdeal

noncomputable section

namespace Cert.Layers

open Idealize.ShloMosaic Cert.ReferenceIdeal

variable {F : FTy → Type} [FloatOps F]
-- the side conditions the reference program states of its shapes and dimension numbers
variable [Facts₀]
open Facts₀

/-- The first layer after its dense product: the sparse product of `sup` with the edge list, then max(·, 0). -/
def hidden (sup : (⟨S100000x128, .f32⟩ : BufTy).Contents (Elt F)) (vals : (⟨S1600000, .f32⟩ : BufTy).Contents (Elt F))
    (src dst : (⟨S1600000, .i32⟩ : BufTy).Contents (Elt F)) : (⟨S100000x128, .f32⟩ : BufTy).Contents (Elt F) :=
  maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))) (broadcastInDim S100000x128 ![] bcast_S_S100000x128 (constant S_ .f32 0x00000000#32))

/-- The second layer after its dense product: the sparse product of `sup` with the edge list. -/
def output (sup : (⟨S100000x64, .f32⟩ : BufTy).Contents (Elt F)) (vals : (⟨S1600000, .f32⟩ : BufTy).Contents (Elt F))
    (src dst : (⟨S1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))

/-- The whole network: two dense products, each followed by its sparse product. -/
def net (x : (⟨S100000x256, .f32⟩ : BufTy).Contents (Elt F)) (w1 : (⟨S256x128, .f32⟩ : BufTy).Contents (Elt F))
    (w2 : (⟨S128x64, .f32⟩ : BufTy).Contents (Elt F)) (vals : (⟨S1600000, .f32⟩ : BufTy).Contents (Elt F))
    (src dst : (⟨S1600000, .i32⟩ : BufTy).Contents (Elt F)) : (⟨S100000x64, .f32⟩ : BufTy).Contents (Elt F) :=
  output (Host.dotGeneral dot_S100000x128_S128x64_S100000x64_1_0_0_1_n_n none
    (hidden (Host.dotGeneral dot_S100000x256_S256x128_S100000x128_1_0_0_1_n_n none x w1) vals src dst) w2) vals src dst

end Cert.Layers

end
-- ==== Proof.Stretches.lean ====
/-
  The kernel program's three stretches of host operations, read as functions of the buffers they start from.

  Between and after its two kernel regions the kernel program runs the same host operations as the reference: the
  sparse product of the first dense product with the edge list, max(·, 0), and after the second region the sparse
  product of the second dense product. Here each stretch's result buffer is read as those operations applied to
  the contents the stretch starts from — any contents: nothing is assumed of them —, and the operations are
  identified with the layers of Proof/Layers.lean, which are stated with the reference's dimension numbers; the
  kernel program's are the same lists. No stretch writes an argument buffer.
-/
import proofs.«139901_j25769804170_1_alg».proof.Proof.Gen.KernelIdeal.Launch
import proofs.«139901_j25769804170_1_alg».proof.Proof.Gen.ReferenceIdeal
import proofs.«139901_j25769804170_1_alg».proof.Proof.Layers
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-! ## The two programs' gathers and scatters have the same dimension numbers -/

theorem gather128_eq : Cert.KernelIdeal.gather_S100000x128_S1600000x1_S1600000x128_1_0_n_n_0_1_1128
    = Cert.ReferenceIdeal.gather_S100000x128_S1600000x1_S1600000x128_1_0_n_n_0_1_1128 := rfl
theorem scatter128_eq : Cert.KernelIdeal.scatter_S100000x128_S1600000x1_S1600000x128_1_0_0_1
    = Cert.ReferenceIdeal.scatter_S100000x128_S1600000x1_S1600000x128_1_0_0_1 := rfl
theorem gather64_eq : Cert.KernelIdeal.gather_S100000x64_S1600000x1_S1600000x64_1_0_n_n_0_1_164
    = Cert.ReferenceIdeal.gather_S100000x64_S1600000x1_S1600000x64_1_0_n_n_0_1_164 := rfl
theorem scatter64_eq : Cert.KernelIdeal.scatter_S100000x64_S1600000x1_S1600000x64_1_0_0_1
    = Cert.ReferenceIdeal.scatter_S100000x64_S1600000x1_S1600000x64_1_0_0_1 := rfl

/-! ## The operations as the layers -/

/-- The first sparse product followed by max(·, 0), in the kernel program's spelling, is the first layer. -/
theorem hidden_eq (sup : (⟨S100000x128, .f32⟩ : BufTy).Contents (Elt Ideal)) (vals : (⟨S1600000, .f32⟩ : BufTy).Contents (Elt Ideal))
    (src dst : (⟨S1600000, .i32⟩ : BufTy).Contents (Elt Ideal)) :
    (maximumf (F := Ideal) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))) (broadcastInDim S100000x128 ![] bcast_S_S100000x128 (constant S_ .f32 0x00000000#32)) : (⟨S100000x128, .f32⟩ : BufTy).Contents (Elt Ideal))
      = Cert.Layers.hidden (F := Ideal) sup vals src dst := by
  rw [gather128_eq, scatter128_eq]
  unfold Cert.Layers.hidden
  rfl

/-- The second sparse product, in the kernel program's spelling, is the second layer. -/
theorem output_eq (sup : (⟨S100000x64, .f32⟩ : BufTy).Contents (Elt Ideal)) (vals : (⟨S1600000, .f32⟩ : BufTy).Contents (Elt Ideal))
    (src dst : (⟨S1600000, .i32⟩ : BufTy).Contents (Elt Ideal)) :
    (Host.scatterAdd (F := Ideal) scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) : (⟨S100000x64, .f32⟩ : BufTy).Contents (Elt Ideal))
      = Cert.Layers.output (F := Ideal) sup vals src dst := by
  rw [gather64_eq, scatter64_eq]
  unfold Cert.Layers.output
  rfl

/-! ## The stretches, from any contents -/

variable (V : Valuation τ sig (Elt Ideal))

/-- The first stretch leaves the sparse product of the first region's array with the edge list. -/
theorem spmm1 : StableHlo.after hostOps1 V (Proc.devRef .tc main_v13)
    = (Host.scatterAdd (F := Ideal) scatter_S100000x128_S1600000x1_S1600000x128_1_0_0_1 (broadcastInDim S100000x128 ![] bcast_S_S100000x128 (constant S_ .f32 0x00000000#32)) (broadcastInDim S1600000x1 ![0] bcast_S1600000_S1600000x1_0 (V (Proc.devRef .tc main_arg5))) (mulf (broadcastInDim S1600000x128 ![0, 1] bcast_S1600000x1_S1600000x128_0_1 (broadcastInDim S1600000x1 ![0] bcast_S1600000_S1600000x1_0 (V (Proc.devRef .tc main_arg3)))) (Host.gather gather_S100000x128_S1600000x1_S1600000x128_1_0_n_n_0_1_1128 (V (Proc.devRef .tc main_v0)) (broadcastInDim S1600000x1 ![0] bcast_S1600000_S1600000x1_0 (select (cmpi .slt (V (Proc.devRef .tc main_arg4)) (broadcastInDim S1600000 ![] bcast_S_S1600000 (constantI S_ 32 0#32))) (addi (V (Proc.devRef .tc main_arg4)) (broadcastInDim S1600000 ![] bcast_S_S1600000 (constantI S_ 32 100000#32))) (V (Proc.devRef .tc main_arg4)))))) : FVec Ideal S100000x128 .f32) := by
  dsimp only [hostOps1]
  after_results_simp

/-- The second stretch leaves the maximum of what the first left with zero. -/
theorem relu : StableHlo.after hostOps1_1 V (Proc.devRef .tc main_v14)
    = (maximumf (F := Ideal) (V (Proc.devRef .tc main_v13) : FVec Ideal S100000x128 .f32)
        (broadcastInDim S100000x128 ![] bcast_S_S100000x128 (constant S_ .f32 0x00000000#32)) : FVec Ideal S100000x128 .f32) := by
  dsimp only [hostOps1_1]
  after_results_simp
  rfl

/-- The first two stretches together leave the first layer of what the first region left. -/
theorem hidden : StableHlo.after hostOps1_1 (StableHlo.after hostOps1 V) (Proc.devRef .tc main_v14)
    = Cert.Layers.hidden (F := Ideal) (V (Proc.devRef .tc main_v0)) (V (Proc.devRef .tc main_arg3))
        (V (Proc.devRef .tc main_arg4)) (V (Proc.devRef .tc main_arg5)) := by
  rw [relu, spmm1]
  exact hidden_eq _ _ _ _

/-- The last stretch leaves the second layer of what the second region left. -/
theorem output : StableHlo.after hostOps2 V (Proc.devRef .tc main_v28)
    = Cert.Layers.output (F := Ideal) (V (Proc.devRef .tc main_v15)) (V (Proc.devRef .tc main_arg3))
        (V (Proc.devRef .tc main_arg4)) (V (Proc.devRef .tc main_arg5)) := by
  refine Eq.trans ?_ (output_eq _ _ _ _)
  dsimp only [hostOps2]
  after_results_simp

/-! ## No stretch writes an argument buffer -/

theorem kept1_arg2 : StableHlo.after hostOps1_1 (StableHlo.after hostOps1 V) (Proc.devRef .tc main_arg2) = V (Proc.devRef .tc main_arg2) := by
  dsimp only [hostOps1_1, hostOps1]
  after_results_simp
theorem kept1_arg3 : StableHlo.after hostOps1_1 (StableHlo.after hostOps1 V) (Proc.devRef .tc main_arg3) = V (Proc.devRef .tc main_arg3) := by
  dsimp only [hostOps1_1, hostOps1]
  after_results_simp
theorem kept1_arg4 : StableHlo.after hostOps1_1 (StableHlo.after hostOps1 V) (Proc.devRef .tc main_arg4) = V (Proc.devRef .tc main_arg4) := by
  dsimp only [hostOps1_1, hostOps1]
  after_results_simp
theorem kept1_arg5 : StableHlo.after hostOps1_1 (StableHlo.after hostOps1 V) (Proc.devRef .tc main_arg5) = V (Proc.devRef .tc main_arg5) := by
  dsimp only [hostOps1_1, hostOps1]
  after_results_simp

end Cert.KernelIdeal.Stretch

end
-- ==== Proof.KernelValue.lean ====
/-
  The kernel program's result array, read down through @main.

  @main is five segments: the first dense product (a kernel region), the first sparse product, the rectifier,
  the second dense product (a kernel region), the second sparse product. The generated frame names the buffers'
  contents at each boundary as a fold from the launch memory. Read from the end: the result is the second sparse
  product of what the second region leaves; that is the whole product of the hidden array with the second weight
  (Proof/Blocks1.lean); the hidden array is the rectified first sparse product of what the first region leaves;
  that is the whole product of the input with the first weight (Proof/Blocks0.lean); and no segment writes an
  argument array. So the result is the network of Proof/Layers.lean applied to the launch arguments.
-/
import proofs.«139901_j25769804170_1_alg».proof.Proof.KernelRun
import proofs.«139901_j25769804170_1_alg».proof.Proof.Blocks0
import proofs.«139901_j25769804170_1_alg».proof.Proof.Blocks1
import proofs.«139901_j25769804170_1_alg».proof.Proof.Layers
import proofs.«139901_j25769804170_1_alg».proof.Proof.Stretches

set_option maxRecDepth 16384

noncomputable section

namespace Cert.KernelIdeal.Net

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the first region -/

/-- The first region leaves the whole product of the input with the first weight. -/
theorem W1_v0 (c : Dev nD) : W1 m ρ c (Proc.devRef .tc main_v0) = Dense0.prod (m ((c : Thread nD τ).loc main_arg0)) (m ((c : Thread nD τ).loc main_arg1)) :=
  (W1_arr m ρ c 2).trans (Dense0.final (V0 m ρ) c)

theorem W1_arg2 (c : Dev nD) : W1 m ρ c (Proc.devRef .tc main_arg2) = (m ((c : Thread nD τ).loc main_arg2)) := W1_of_ne m ρ c main_arg2 (by decide)
theorem W1_arg3 (c : Dev nD) : W1 m ρ c (Proc.devRef .tc main_arg3) = (m ((c : Thread nD τ).loc main_arg3)) := W1_of_ne m ρ c main_arg3 (by decide)
theorem W1_arg4 (c : Dev nD) : W1 m ρ c (Proc.devRef .tc main_arg4) = (m ((c : Thread nD τ).loc main_arg4)) := W1_of_ne m ρ c main_arg4 (by decide)
theorem W1_arg5 (c : Dev nD) : W1 m ρ c (Proc.devRef .tc main_arg5) = (m ((c : Thread nD τ).loc main_arg5)) := W1_of_ne m ρ c main_arg5 (by decide)

/-! ## After the first sparse product and the rectifier -/

/-- The hidden array: the first layer of Proof/Layers.lean applied to what the first region leaves. -/
theorem W3_v14 (c : Dev nD) : W3 m ρ c (Proc.devRef .tc main_v14)
    = Cert.Layers.hidden (F := Ideal) (W1 m ρ c (Proc.devRef .tc main_v0)) (W1 m ρ c (Proc.devRef .tc main_arg3))
        (W1 m ρ c (Proc.devRef .tc main_arg4)) (W1 m ρ c (Proc.devRef .tc main_arg5)) :=
  Stretch.hidden (W1 m ρ c)

/-- The two host stretches write no argument array. -/
theorem W3_arg2 (c : Dev nD) : W3 m ρ c (Proc.devRef .tc main_arg2) = (m ((c : Thread nD τ).loc main_arg2)) :=
  (Stretch.kept1_arg2 (W1 m ρ c)).trans (W1_arg2 m ρ c)
theorem W3_arg3 (c : Dev nD) : W3 m ρ c (Proc.devRef .tc main_arg3) = (m ((c : Thread nD τ).loc main_arg3)) :=
  (Stretch.kept1_arg3 (W1 m ρ c)).trans (W1_arg3 m ρ c)
theorem W3_arg4 (c : Dev nD) : W3 m ρ c (Proc.devRef .tc main_arg4) = (m ((c : Thread nD τ).loc main_arg4)) :=
  (Stretch.kept1_arg4 (W1 m ρ c)).trans (W1_arg4 m ρ c)
theorem W3_arg5 (c : Dev nD) : W3 m ρ c (Proc.devRef .tc main_arg5) = (m ((c : Thread nD τ).loc main_arg5)) :=
  (Stretch.kept1_arg5 (W1 m ρ c)).trans (W1_arg5 m ρ c)

/-! ## After the second region -/

/-- The second region leaves the whole product of the hidden array with the second weight. -/
theorem W4_v15 (c : Dev nD) : W4 m ρ c (Proc.devRef .tc main_v15)
    = Dense1.prod (W3 m ρ c (Proc.devRef .tc main_v14)) (W3 m ρ c (Proc.devRef .tc main_arg2)) :=
  (W4_arr m ρ c 2).trans (Dense1.final (V3 m ρ) c)

theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)

/-! ## After the second sparse product -/

/-- The result: the second layer of Proof/Layers.lean applied to what the second region leaves. -/
theorem W5_v28 (c : Dev nD) : W5 m ρ c (Proc.devRef .tc main_v28)
    = Cert.Layers.output (F := Ideal) (W4 m ρ c (Proc.devRef .tc main_v15)) (W4 m ρ c (Proc.devRef .tc main_arg3))
        (W4 m ρ c (Proc.devRef .tc main_arg4)) (W4 m ρ c (Proc.devRef .tc main_arg5)) :=
  Stretch.output (W4 m ρ c)

/-- The result array at the end of @main is the network applied to the launch arguments. -/
theorem result_eq (c : Dev nD) : W5 m ρ c (Proc.devRef .tc main_v28)
    = Cert.Layers.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W5_v28, W4_v15, W4_arg3, W4_arg4, W4_arg5, W3_v14, W3_arg2, W1_v0, W1_arg3, W1_arg4, W1_arg5]
  rfl

/-- Every weakly fair execution of the kernel program terminates with its result at the network of its arguments,
    the arguments unchanged. -/
theorem run : θ_run defs (onTc (τ := τ) (main (F := Ideal))) ⟨m, fun _ => 0, ρ⟩ fun r => ∀ c : Dev nD,
      r.2.mem ((c.tc : Thread nD τ).loc main_v28) = Cert.Layers.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m ρ c), (h c).2⟩) (Cert.KernelIdeal.Named.run_named (F := Ideal) m ρ)

end Cert.KernelIdeal.Net

end
-- ==== Proof.Reference.lean ====
/-
  The reference program's run, read: its result array is the network of Proof/Layers.lean applied to the
  argument arrays — the host's two dense products, each followed by the sparse product with the edge list, the
  first also by max(·, 0). The generated run posts the result as the operations' composed term; that term is the
  network's definition unfolded.
-/
import proofs.«139901_j25769804170_1_alg».proof.Defs
import proofs.«139901_j25769804170_1_alg».proof.Proof.Gen.ReferenceIdeal.Run
import proofs.«139901_j25769804170_1_alg».proof.Proof.Layers

noncomputable section

namespace Cert.ReferenceIdeal.Net

open Cert.ReferenceIdeal Cert.ReferenceIdeal.Gen Idealize.ShloMosaic Idealize.ShloMosaic.TcCoe Idealize.SL.Sem

/-- Every weakly fair execution of the reference terminates with its result at the network of its arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.Layers.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold Cert.Layers.net Cert.Layers.output Cert.Layers.hidden; rfl), (h c).2⟩)
    (Cert.ReferenceIdeal.Value.run (F := Ideal) m ρ)

end Cert.ReferenceIdeal.Net

end
-- ==== Proof.lean ====
/-
  A two-layer graph convolution: mu = A · (max(A · (x · W1), 0) · W2), where A is the sparse matrix given by the
  edge list (edge e adds vals[e] times row src[e] of its operand into row dst[e] of the result).

  The kernel program computes the two dense products x · W1 and h · W2 in two kernel regions, each over 20 row
  blocks of 5000 rows, with the operands rounded to bf16 before the product; the two sparse products and the
  rectifier are host operations, the same ones the reference runs. The reference computes the two dense products
  with the host's dot_general. On the extended reals the rounding is the identity and a row block of a product is
  the product of the row block, so each region leaves the whole product (Proof/Blocks0.lean, Proof/Blocks1.lean);
  reading the kernel program's result down through @main (Proof/KernelValue.lean) and the reference's run
  (Proof/Reference.lean) gives the same function of the arguments, the network of Proof/Layers.lean. No
  algebraic law beyond regrouping a sum into row blocks is used, so the finiteness of the inputs is never opened.

  The three frames: the kernel program's two, whole, from the generated frame modules; the reference's is its run
  with the result dropped. The idealization rewrote no operation, so there is nothing to preserve.
-/
import proofs.«139901_j25769804170_1_alg».proof.Defs
import proofs.«139901_j25769804170_1_alg».proof.Proof.Gen.Kernel
import proofs.«139901_j25769804170_1_alg».proof.Proof.Gen.Kernel.Frame
import proofs.«139901_j25769804170_1_alg».proof.Proof.Gen.KernelIdeal
import proofs.«139901_j25769804170_1_alg».proof.Proof.Gen.KernelIdeal.Frame
import proofs.«139901_j25769804170_1_alg».proof.Proof.Gen.ReferenceIdeal
import proofs.«139901_j25769804170_1_alg».proof.Proof.Gen.ReferenceIdeal.Run
import proofs.«139901_j25769804170_1_alg».proof.Proof.Gen.Pre_finite_inputs
import proofs.«139901_j25769804170_1_alg».proof.Proof.KernelValue
import proofs.«139901_j25769804170_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their arguments in the result array, and the arguments agree. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Net.run m' ρ')
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
